-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn_part1 {F : FTy → Type} [FloatOps F] (main_arg4 : FVec F S4096x2048 .f32) (main_arg5 : FVec F S4096x2048 .f32) (main_arg6 : FVec F S4096x2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S4096x2048 .f32 := Host.absf main_arg6
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S4096x2048 .f32) (main_arg5 : FVec F S4096x2048 .f32) (main_arg6 : FVec F S4096x2048 .f32) (main_arg7 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_v13 main_v16
-- ==== Kernel.lean ====
abbrev S4096x2048 : Shape := ⟨2, ![4096, 2048]⟩
abbrev S4096 : Shape := ⟨1, ![4096]⟩
abbrev S4096x1 : Shape := ⟨2, ![4096, 1]⟩
abbrev S4096x4 : Shape := ⟨2, ![4096, 4]⟩
abbrev S128x2048 : Shape := ⟨2, ![128, 2048]⟩
abbrev S128x1 : Shape := ⟨2, ![128, 1]⟩
abbrev S128x4 : Shape := ⟨2, ![128, 4]⟩
abbrev S128 : Shape := ⟨1, ![128]⟩
abbrev S_ : Shape := ⟨0, ![]⟩
abbrev S1 : Shape := ⟨1, ![1]⟩
abbrev S5 : Shape := ⟨1, ![5]⟩

abbrev nBuf : Space → Nat
  | .hbm => 45
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096, .i32⟩
  | .hbm, ⟨8, _⟩ => ⟨S4096x1, .i32⟩
  | .hbm, ⟨9, _⟩ => ⟨S4096x4, .f32⟩
  | .hbm, ⟨10, _⟩ => ⟨S4096x1, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x1, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4096x1, .f32⟩
  | .hbm, ⟨23, _⟩ => ⟨S4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x1, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S1, .f32⟩
  | .hbm, ⟨41, _⟩ => ⟨S1, .f32⟩
  | .hbm, ⟨42, _⟩ => ⟨S1, .f32⟩
  | .hbm, ⟨43, _⟩ => ⟨S1, .f32⟩
  | .hbm, ⟨44, _⟩ => ⟨S5, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x1, .i32⟩
  | .local _ .vmem, ⟨15, _⟩ => ⟨S128x1, .i32⟩
  | .local _ .vmem, ⟨16, _⟩ => ⟨S128x4, .f32⟩
  | .local _ .vmem, ⟨17, _⟩ => ⟨S128x4, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S4096_S4096x1 : S4096.ShapeCasts S4096x1
  iota_S128x2048_d1_w32 : S128x2048.Iotas .tc 32 [1]
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x2048 : S128x1.Broadcasts S128x2048
  natLt_1_32 : 1 < 32
  inb_S128x2048_S128x2048_0_0 : ∀ a, (![0, 0] : Fin 2 → Nat) a + S128x2048.size a ≤ S128x2048.size a
  h_S128x2048 : 0 < S128x2048.numel
  reduces_S128x2048_S128 : S128x2048.Reduces [1] S128
  shapeCasts_S128_S128x1 : S128.ShapeCasts S128x1
  concatenates_S128x1_S128x1_S128x1_S128x1_S128x4_d1 : Shape.Concatenates [S128x1, S128x1, S128x1, S128x1] S128x4 1
  inb_S128x4_S128x4_0_0 : ∀ a, (![0, 0] : Fin 2 → Nat) a + S128x4.size a ≤ S128x4.size a
  h_S128x4 : 0 < S128x4.numel
  slices_S4096x4_S4096x1_0_0 : S4096x4.Slices ![0, 0] S4096x1
  shapeCasts_S4096x1_S4096 : S4096x1.ShapeCasts S4096
  reducesTo_S4096_S_d0 : S4096.ReducesTo [0] S_
  h_S_ : 0 < S_.numel
  slices_S4096x4_S4096x1_0_1 : S4096x4.Slices ![0, 1] S4096x1
  slices_S4096x4_S4096x1_0_2 : S4096x4.Slices ![0, 2] S4096x1
  slices_S4096x4_S4096x1_0_3 : S4096x4.Slices ![0, 3] S4096x1
  bcast_S_S1 : S_.BroadcastsInDim S1 (![] : Fin 0 → Fin S1.rank)
  concatenates_S1_S1_S1_S1_S1_S5_d0 : Shape.Concatenates [S1, S1, S1, S1, S1] S5 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .f32 = 32 ∨ (Rect.block (s := S4096x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .f32 = 32 ∨ (Rect.block (s := S4096x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S4096x2048.size a
  hwx0_2 : ∀ i : grid0.Coords, EltTy.bits .f32 = 32 ∨ (Rect.block (s := S4096x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S4096x2048.size a
  hwx0_3 : ∀ i : grid0.Coords, EltTy.bits .f32 = 32 ∨ (Rect.block (s := S4096x2048) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S4096x2048.size a
  hwx0_4 : ∀ i : grid0.Coords, EltTy.bits .f32 = 32 ∨ (Rect.block (s := S4096x2048) S128x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S4096x2048.size a
  hwx0_5 : ∀ i : grid0.Coords, EltTy.bits .f32 = 32 ∨ (Rect.block (s := S4096x2048) S128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S4096x2048.size a
  hwx0_6 : ∀ i : grid0.Coords, EltTy.bits .f32 = 32 ∨ (Rect.block (s := S4096x2048) S128x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S4096x1.size a
  hwx0_7 : ∀ i : grid0.Coords, EltTy.bits .i32 = 32 ∨ (Rect.block (s := S4096x1) S128x1.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x4.size a ≤ S4096x4.size a
  hwx0_8 : ∀ i : grid0.Coords, EltTy.bits .f32 = 32 ∨ (Rect.block (s := S4096x4) S128x4.size (cc0_transform_8 i) (hinb0_8 i)).WholeWords (EltTy.packing .f32)

variable [Facts₀]

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S128x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1) S128x4.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096 : Shape := ⟨1, ![4096]⟩
abbrev S2048 : Shape := ⟨1, ![2048]⟩
abbrev S1x2048 : Shape := ⟨2, ![1, 2048]⟩
abbrev S4096x1 : Shape := ⟨2, ![4096, 1]⟩
abbrev S_ : Shape := ⟨0, ![]⟩
abbrev S1 : Shape := ⟨1, ![1]⟩
abbrev S5 : Shape := ⟨1, ![5]⟩

abbrev nBuf : Space → Nat
  | .hbm => 86
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096, .i32⟩
  | .hbm, ⟨8, _⟩ => ⟨S2048, .i32⟩
  | .hbm, ⟨9, _⟩ => ⟨S1x2048, .i32⟩
  | .hbm, ⟨10, _⟩ => ⟨S4096x1, .i32⟩
  | .hbm, ⟨11, _⟩ => ⟨S4096x2048, .i32⟩
  | .hbm, ⟨12, _⟩ => ⟨S4096x2048, .i32⟩
  | .hbm, ⟨13, _⟩ => ⟨S4096x2048, .i1⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S4096, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1, .f32⟩
  | .hbm, ⟨81, _⟩ => ⟨S1, .f32⟩
  | .hbm, ⟨82, _⟩ => ⟨S1, .f32⟩
  | .hbm, ⟨83, _⟩ => ⟨S1, .f32⟩
  | .hbm, ⟨84, _⟩ => ⟨S1, .f32⟩
  | .hbm, ⟨85, _⟩ => ⟨S5, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_cst_10 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_12 : Ref sig .tc := ⟨.hbm, 61, rfl⟩
abbrev main_v40 : Ref sig .tc := ⟨.hbm, 62, rfl⟩
abbrev main_v41 : Ref sig .tc := ⟨.hbm, 63, rfl⟩
abbrev main_cst_13 : Ref sig .tc := ⟨.hbm, 64, rfl⟩
abbrev main_v42 : Ref sig .tc := ⟨.hbm, 65, rfl⟩
abbrev main_cst_14 : Ref sig .tc := ⟨.hbm, 66, rfl⟩
abbrev main_v43 : Ref sig .tc := ⟨.hbm, 67, rfl⟩
abbrev main_v44 : Ref sig .tc := ⟨.hbm, 68, rfl⟩
abbrev main_cst_15 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_16 : Ref sig .tc := ⟨.hbm, 73, rfl⟩
abbrev main_v48 : Ref sig .tc := ⟨.hbm, 74, rfl⟩
abbrev main_cst_17 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S4096_S4096x1_0 : S4096.BroadcastsInDim S4096x1 (![0] : Fin 1 → Fin S4096x1.rank)
  bcast_S1x2048_S4096x2048_0_1 : S1x2048.BroadcastsInDim S4096x2048 (![0, 1] : Fin 2 → Fin S4096x2048.rank)
  bcast_S4096x1_S4096x2048_0_1 : S4096x1.BroadcastsInDim S4096x2048 (![0, 1] : Fin 2 → Fin S4096x2048.rank)
  reducesTo_S4096x2048_S4096_d1 : S4096x2048.ReducesTo [1] S4096
  h_S_ : 0 < S_.numel
  reducesTo_S4096_S_d0 : S4096.ReducesTo [0] S_
  bcast_S_S4096x2048 : S_.BroadcastsInDim S4096x2048 (![] : Fin 0 → Fin S4096x2048.rank)
  bcast_S_S4096 : S_.BroadcastsInDim S4096 (![] : Fin 0 → Fin S4096.rank)
  bcast_S_S1 : S_.BroadcastsInDim S1 (![] : Fin 0 → Fin S1.rank)
  concatenates_S1_S1_S1_S1_S1_S5_d0 : Shape.Concatenates [S1, S1, S1, S1, S1] S5 0

variable [Facts₀]

class Facts : Prop extends Facts₀ where

variable [Facts]
-- ==== Proof.KAround.lean ====
/-
  The frame of the kernel program, by hand: the program is one reshape of the length vector, one pipelined region over
  32 blocks of 128 samples, and a tail of host operations that reduce the region's [4096, 4] result to five numbers.

  At every grid point the body loads its eight input blocks whole and stores ONE whole [128, 4] block (it also loads the
  output buffer, a value it never uses), so what each output buffer holds after the body is a function of the input
  blocks alone (`out0_8`), the inputs are left in place, and nothing is carried between points. The region therefore
  runs to the end from any memory, faults nowhere and leaves every argument array as launched; the tail writes only
  its own result buffers. Stated at any float instance, so that it serves the word-level and the idealized reading.
-/
import proofs.«170122_j51651276701971_1_alg».proof.Proof.Gen.Kernel.Launch
import proofs.«170122_j51651276701971_1_alg».proof.Proof.Gen.Kernel.Skeleton
import proofs.«170122_j51651276701971_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffer contents when the region is entered: the launch memory after the one reshape. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the reshape, then the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The tail touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each tail operation writes its own result buffer, which is none of the nine arrays the region stages. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.reshape_writes, StableHlo.nary_writes, Finset.mem_singleton]
  repeat' apply And.intro
  all_goals intro w; fin_cases w <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- The reshape before the region writes only its own result: the region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The reshape before the region writes only its own result: the region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The reshape before the region writes only its own result: the region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The reshape before the region writes only its own result: the region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The reshape before the region writes only its own result: the region finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The reshape before the region writes only its own result: the region finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The reshape before the region writes only its own result: the region finds argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The reshape before the region writes only its own result: the region finds argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No operation after the region writes the length vector, and it is no array of the pipeline: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Every input window is fetched whole at every point and never written by the body, so its current staging buffer
    holds its block, for any proof data over these arrays whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.KBody.lean ====
/-
  One run of the kernel body on whole staging buffers: it loads the eight input blocks (and, idly, the output buffer),
  and stores ONE value covering the output block whole, so the output buffer ends at that value, a function of the
  loaded input blocks, and every input buffer ends as it was. At any float instance.
-/
import proofs.«170122_j51651276701971_1_alg».proof.Proof.KAround

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rIn : Rect S128x2048 := Rect.unit (s := S128x2048) ![0, 0] S128x2048.size inb_S128x2048_S128x2048_0_0
abbrev rLen : Rect S128x1 := Rect.unit (s := S128x1) ![0, 0] S128x1.size inb_S128x1_S128x1_0_0
abbrev rOut : Rect S128x4 := Rect.unit (s := S128x4) ![0, 0] S128x4.size inb_S128x4_S128x4_0_0

/-- The value the body stores, from the contents of the eight input buffers (in window order: the four predictions,
    the two targets, the localization target, the lengths). -/
def stored (x0 x1 x2 x3 x4 x5 x6 : Vec F S128x2048 .f32) (x7 : Vec F S128x1 .i32) : Vec F S128x4 .f32 :=
  k0_pay1 (k0_pay3 (View.ld x7 rLen) (View.ld x0 rIn) (View.ld x4 rIn)) (k0_pay4 (View.ld x7 rLen) (View.ld x1 rIn) (View.ld x5 rIn))
    (View.ld x6 rIn) (k0_pay5 (View.ld x7 rLen) (View.ld x2 rIn) (View.ld x6 rIn)) (k0_pay6 (View.ld x7 rLen) (View.ld x6 rIn)) (View.ld x3 rIn)

/-- The output buffer after the body: its one store, read back whole. -/
def out0_8 (x0 x1 x2 x3 x4 x5 x6 : Vec F S128x2048 .f32) (x7 : Vec F S128x1 .i32) : Vec F S128x4 .f32 :=
  View.canon [⟨rOut, stored x0 x1 x2 x3 x4 x5 x6 x7⟩]

/-- The one store covers the buffer. -/
theorem cover0_8 (p0 : Vec F S128x4 .f32) (y : S128x4.Idx) :
    ∃ pc ∈ ([⟨rOut, p0⟩] : List (View.Piece (Elt F) S128x4 .f32)), y ∈ pc.1.set :=
  View.cover_of_tiled [⟨rOut, p0⟩] S128x4.size (by rfl) y

/-! ## The body's triple -/

set_option maxHeartbeats 4000000 in
theorem sound_kernel (c : Dev nD) (E : Set ℕ) (i : grid0.Coords)
    (arg1 : Memref sig .tc .vmem S128x2048 .f32) (harg1 : arg1.IsWhole) (arg2 : Memref sig .tc .vmem S128x2048 .f32) (harg2 : arg2.IsWhole)
    (arg3 : Memref sig .tc .vmem S128x2048 .f32) (harg3 : arg3.IsWhole) (arg4 : Memref sig .tc .vmem S128x2048 .f32) (harg4 : arg4.IsWhole)
    (arg5 : Memref sig .tc .vmem S128x2048 .f32) (harg5 : arg5.IsWhole) (arg6 : Memref sig .tc .vmem S128x2048 .f32) (harg6 : arg6.IsWhole)
    (arg7 : Memref sig .tc .vmem S128x2048 .f32) (harg7 : arg7.IsWhole) (arg8 : Memref sig .tc .vmem S128x1 .i32) (harg8 : arg8.IsWhole)
    (arg9 : Memref sig .tc .vmem S128x4 .f32) (harg9 : arg9.IsWhole)
    (x0 x1 x2 x3 x4 x5 x6 : Vec F S128x2048 .f32) (x7 : Vec F S128x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_words
  exact View.read_writes_eq_canon _ _ _ (cover0_8 _)

end Cert.Kernel.Hand

end
-- ==== Proof.KFrame.lean ====
/-
  The region's proof data and its launch. After the body at grid point t every input buffer holds its block of the
  array as the region found it, and the output buffer holds the stored value of those eight blocks; the invariant is
  the untouched rest. With the body's triple at every point this gives the run of the whole program: it terminates
  without a fault, the region's result array ends at the blocks written back, every other buffer is what the tail leaves,
  and the argument arrays end as launched. At any float instance.
-/
import proofs.«170122_j51651276701971_1_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The argument arrays end as launched -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).1 3).trans (((dats 0 c).arrAt_in 3 rfl _).trans ((hA c 3).trans (V_main_arg3 m c))),
    ((h c).1 4).trans (((dats 0 c).arrAt_in 4 rfl _).trans ((hA c 4).trans (V_main_arg4 m c))),
    ((h c).1 5).trans (((dats 0 c).arrAt_in 5 rfl _).trans ((hA c 5).trans (V_main_arg5 m c))),
    ((h c).1 6).trans (((dats 0 c).arrAt_in 6 rfl _).trans ((hA c 6).trans (V_main_arg6 m c))),
    ((h c).2 main_arg7 (Pipeline.mem_restRefs_of main_arg7 (by decide) (by decide))).trans (W_main_arg7 m dats c)⟩) h

/-- The frame: the program runs to the end from any memory, faults nowhere, and leaves its eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.KIAround.lean ====
/-
  The frame of the kernel program, by hand: the program is one reshape of the length vector, one pipelined region over
  32 blocks of 128 samples, and a tail of host operations that reduce the region's [4096, 4] result to five numbers.

  At every grid point the body loads its eight input blocks whole and stores ONE whole [128, 4] block (it also loads the
  output buffer, a value it never uses), so what each output buffer holds after the body is a function of the input
  blocks alone (`out0_8`), the inputs are left in place, and nothing is carried between points. The region therefore
  runs to the end from any memory, faults nowhere and leaves every argument array as launched; the tail writes only
  its own result buffers. Stated at any float instance, so that it serves the word-level and the idealized reading.
-/
import proofs.«170122_j51651276701971_1_alg».proof.Proof.Gen.KernelIdeal.Launch
import proofs.«170122_j51651276701971_1_alg».proof.Proof.Gen.KernelIdeal.Skeleton
import proofs.«170122_j51651276701971_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffer contents when the region is entered: the launch memory after the one reshape. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the reshape, then the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The tail touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each tail operation writes its own result buffer, which is none of the nine arrays the region stages. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.reshape_writes, StableHlo.nary_writes, Finset.mem_singleton]
  repeat' apply And.intro
  all_goals intro w; fin_cases w <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- The reshape before the region writes only its own result: the region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The reshape before the region writes only its own result: the region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The reshape before the region writes only its own result: the region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The reshape before the region writes only its own result: the region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The reshape before the region writes only its own result: the region finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The reshape before the region writes only its own result: the region finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The reshape before the region writes only its own result: the region finds argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The reshape before the region writes only its own result: the region finds argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No operation after the region writes the length vector, and it is no array of the pipeline: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Every input window is fetched whole at every point and never written by the body, so its current staging buffer
    holds its block, for any proof data over these arrays whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KIBody.lean ====
/-
  One run of the kernel body on whole staging buffers: it loads the eight input blocks (and, idly, the output buffer),
  and stores ONE value covering the output block whole, so the output buffer ends at that value, a function of the
  loaded input blocks, and every input buffer ends as it was. At any float instance.
-/
import proofs.«170122_j51651276701971_1_alg».proof.Proof.KIAround

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rIn : Rect S128x2048 := Rect.unit (s := S128x2048) ![0, 0] S128x2048.size inb_S128x2048_S128x2048_0_0
abbrev rLen : Rect S128x1 := Rect.unit (s := S128x1) ![0, 0] S128x1.size inb_S128x1_S128x1_0_0
abbrev rOut : Rect S128x4 := Rect.unit (s := S128x4) ![0, 0] S128x4.size inb_S128x4_S128x4_0_0

/-- The value the body stores, from the contents of the eight input buffers (in window order: the four predictions,
    the two targets, the localization target, the lengths). -/
def stored (x0 x1 x2 x3 x4 x5 x6 : Vec F S128x2048 .f32) (x7 : Vec F S128x1 .i32) : Vec F S128x4 .f32 :=
  k0_pay1 (k0_pay3 (View.ld x7 rLen) (View.ld x0 rIn) (View.ld x4 rIn)) (k0_pay4 (View.ld x7 rLen) (View.ld x1 rIn) (View.ld x5 rIn))
    (View.ld x6 rIn) (k0_pay5 (View.ld x7 rLen) (View.ld x2 rIn) (View.ld x6 rIn)) (k0_pay6 (View.ld x7 rLen) (View.ld x6 rIn)) (View.ld x3 rIn)

/-- The output buffer after the body: its one store, read back whole. -/
def out0_8 (x0 x1 x2 x3 x4 x5 x6 : Vec F S128x2048 .f32) (x7 : Vec F S128x1 .i32) : Vec F S128x4 .f32 :=
  View.canon [⟨rOut, stored x0 x1 x2 x3 x4 x5 x6 x7⟩]

/-- The one store covers the buffer. -/
theorem cover0_8 (p0 : Vec F S128x4 .f32) (y : S128x4.Idx) :
    ∃ pc ∈ ([⟨rOut, p0⟩] : List (View.Piece (Elt F) S128x4 .f32)), y ∈ pc.1.set :=
  View.cover_of_tiled [⟨rOut, p0⟩] S128x4.size (by rfl) y

/-! ## The body's triple -/

set_option maxHeartbeats 4000000 in
theorem sound_kernel (c : Dev nD) (E : Set ℕ) (i : grid0.Coords)
    (arg1 : Memref sig .tc .vmem S128x2048 .f32) (harg1 : arg1.IsWhole) (arg2 : Memref sig .tc .vmem S128x2048 .f32) (harg2 : arg2.IsWhole)
    (arg3 : Memref sig .tc .vmem S128x2048 .f32) (harg3 : arg3.IsWhole) (arg4 : Memref sig .tc .vmem S128x2048 .f32) (harg4 : arg4.IsWhole)
    (arg5 : Memref sig .tc .vmem S128x2048 .f32) (harg5 : arg5.IsWhole) (arg6 : Memref sig .tc .vmem S128x2048 .f32) (harg6 : arg6.IsWhole)
    (arg7 : Memref sig .tc .vmem S128x2048 .f32) (harg7 : arg7.IsWhole) (arg8 : Memref sig .tc .vmem S128x1 .i32) (harg8 : arg8.IsWhole)
    (arg9 : Memref sig .tc .vmem S128x4 .f32) (harg9 : arg9.IsWhole)
    (x0 x1 x2 x3 x4 x5 x6 : Vec F S128x2048 .f32) (x7 : Vec F S128x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  sl_unfold_words
  exact View.read_writes_eq_canon _ _ _ (cover0_8 _)

end Cert.KernelIdeal.Hand

end
-- ==== Proof.KIFrame.lean ====
/-
  The region's proof data and its launch. After the body at grid point t every input buffer holds its block of the
  array as the region found it, and the output buffer holds the stored value of those eight blocks; the invariant is
  the untouched rest. With the body's triple at every point this gives the run of the whole program: it terminates
  without a fault, the region's result array ends at the blocks written back, every other buffer is what the tail leaves,
  and the argument arrays end as launched. At any float instance.
-/
import proofs.«170122_j51651276701971_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The argument arrays end as launched -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).1 3).trans (((dats 0 c).arrAt_in 3 rfl _).trans ((hA c 3).trans (V_main_arg3 m c))),
    ((h c).1 4).trans (((dats 0 c).arrAt_in 4 rfl _).trans ((hA c 4).trans (V_main_arg4 m c))),
    ((h c).1 5).trans (((dats 0 c).arrAt_in 5 rfl _).trans ((hA c 5).trans (V_main_arg5 m c))),
    ((h c).1 6).trans (((dats 0 c).arrAt_in 6 rfl _).trans ((hA c 6).trans (V_main_arg6 m c))),
    ((h c).2 main_arg7 (Pipeline.mem_restRefs_of main_arg7 (by decide) (by decide))).trans (W_main_arg7 m dats c)⟩) h

/-- The frame: the program runs to the end from any memory, faults nowhere, and leaves its eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.Spec.lean ====
/-
  What both programs compute, written once over the extended reals.

  Per sample i (a row of 2048 time steps) with length len_i, the mask keep(len_i, k) is 1 for k < len_i and 0 otherwise, and
    * the start / end divergence   klRow p g len  = -(sum_k  g_k * log (p_k / g_k) * keep(len, k)),
    * the attention loss           attRow pa gl   = (sum_k (-gl_k) * log (pa_k + eps)) / (sum_k gl_k + eps),
    * the masked middle loss       midRow pm gl len = (0.7 * sum_k (-gl_k) * log pm_k * keep(len,k)) / (sum_k gl_k * keep(len,k) + eps).
  The result is five numbers made of the means over the 4096 samples of these four per-sample losses:
  (start + end + attention/2 + middle, start, end, attention/2, middle), the same chain of host operations in both
  programs (`tailFn`), so that only the four per-sample vectors have to be compared.
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev S0 : Shape := ⟨0, ![]⟩
abbrev S1 : Shape := ⟨1, ![1]⟩
abbrev S5 : Shape := ⟨1, ![5]⟩
abbrev SB : Shape := ⟨1, ![4096]⟩
abbrev SBT : Shape := ⟨2, ![4096, 2048]⟩

/-! ## One sample -/

/-- The length mask at time step `k`: the bit `k < len` (signed, on 32-bit words) read as a number. -/
def keep (len : BitVec 32) (k : Fin 2048) : EReal :=
  FloatOps.uitofp (F := Ideal) .f32 (IntOp.cmpi .slt (BitVec.ofNat 32 k.val) len)

/-- The shared literal 1e-8 (as the f32 it rounds to). -/
def eps : EReal := Ideal.ofBits .f32 0x322BCC77#32
/-- The shared literal 0.7 (as the f32 it rounds to). -/
def c07 : EReal := Ideal.ofBits .f32 0x3F333333#32

/-- The masked divergence of one sample. -/
def klRow (p g : Fin 2048 → EReal) (len : BitVec 32) : EReal :=
  -(∑ k : Fin 2048, g k * Ideal.log (Ideal.div (p k) (g k)) * keep len k)

/-- The attention loss of one sample (not masked). -/
def attRow (pa gl : Fin 2048 → EReal) : EReal :=
  Ideal.div (∑ k : Fin 2048, -(gl k) * Ideal.log (pa k + eps)) ((∑ k : Fin 2048, gl k) + eps)

/-- The masked middle loss of one sample. -/
def midRow (pm gl : Fin 2048 → EReal) (len : BitVec 32) : EReal :=
  Ideal.div (c07 * ∑ k : Fin 2048, -(gl k) * Ideal.log (pm k) * keep len k)
    ((∑ k : Fin 2048, gl k * keep len k) + eps)

/-! ## All samples -/

/-- Row `i` of a [4096, 2048] array. -/
def rowOf (X : SBT.Idx → EReal) (i : Fin 4096) : Fin 2048 → EReal := fun k => X (ix2 i k)

def klVec (P G : SBT.Idx → EReal) (L : SB.Idx → BitVec 32) : SB.Idx → EReal :=
  fun i => klRow (rowOf P (i 0)) (rowOf G (i 0)) (L i)
def attVec (Pa Ga : SBT.Idx → EReal) : SB.Idx → EReal :=
  fun i => attRow (rowOf Pa (i 0)) (rowOf Ga (i 0))
def midVec (Pm Ga : SBT.Idx → EReal) (L : SB.Idx → BitVec 32) : SB.Idx → EReal :=
  fun i => midRow (rowOf Pm (i 0)) (rowOf Ga (i 0)) (L i)

/-! ## The five results from the four per-sample vectors -/

section Tail
variable {F : FTy → Type} [FloatOps F]
variable (hR : SB.ReducesTo [0] S0) (hS : 0 < S0.numel)
  (hB : S0.BroadcastsInDim S1 (![] : Fin 0 → Fin S1.rank)) (hC : Shape.Concatenates [S1, S1, S1, S1, S1] S5 0)

/-- The mean over the samples as the host computes it: the sum from zero, divided by 4096. -/
def meanOf (v : FVec F SB .f32) : FVec F S0 .f32 :=
  Host.divf (Host.reduceAdd v (constant S0 .f32 0x00000000#32) hR hS) (constant S0 .f32 0x45800000#32)

/-- (total, start, end, attention / 2, middle) from the four per-sample vectors. -/
def tailFn (a b c d : FVec F SB .f32) : FVec F S5 .f32 :=
  concatenate S5 0
    [⟨S1, broadcastInDim S1 ![] hB (addf (addf (addf (meanOf hR hS a) (meanOf hR hS b))
        (mulf (constant S0 .f32 0x3F000000#32) (meanOf hR hS c))) (meanOf hR hS d))⟩,
     ⟨S1, broadcastInDim S1 ![] hB (meanOf hR hS a)⟩,
     ⟨S1, broadcastInDim S1 ![] hB (meanOf hR hS b)⟩,
     ⟨S1, broadcastInDim S1 ![] hB (mulf (constant S0 .f32 0x3F000000#32) (meanOf hR hS c))⟩,
     ⟨S1, broadcastInDim S1 ![] hB (meanOf hR hS d)⟩] hC

end Tail

end Cert.Spec

end
-- ==== Proof.KIPayload.lean ====
/-
  The idealized kernel body's stored block, read at a row and a column: column 0 and 1 are the masked divergences of
  the row, column 2 its attention loss, column 3 its masked middle loss, each a function of the rows of the loaded blocks.
-/
import proofs.«170122_j51651276701971_1_alg».proof.Proof.Gen.KernelIdeal.Skeleton
import proofs.«170122_j51651276701971_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.Spec Idealize.ShloMosaic Idealize.ShloMosaic.ValueIdx

variable [Cert.KernelIdeal.Facts]

/-- Row `r` of a loaded [128, 2048] block. -/
def brow (x : Vec Ideal S128x2048 .f32) (r : Fin 128) : Fin 2048 → EReal := fun k => x (ix2 r k)

/-- A one-bit word widened to 32 bits and read signed is the bit read unsigned. -/
theorem sitofp_bit (b : BitVec 1) :
    FloatOps.sitofp (F := Ideal) .f32 (b.setWidth 32) = FloatOps.uitofp (F := Ideal) .f32 b := by
  rcases BitVec.eq_zero_or_eq_one b with rfl | rfl
  · show (((BitVec.setWidth 32 0#1).toInt : ℝ) : EReal) = (((0#1 : BitVec 1).toNat : ℝ) : EReal)
    have h1 : (BitVec.setWidth 32 0#1).toInt = 0 := by decide
    have h2 : (0#1 : BitVec 1).toNat = 0 := by decide
    rw [h1, h2]; simp
  · show (((BitVec.setWidth 32 1#1).toInt : ℝ) : EReal) = (((1#1 : BitVec 1).toNat : ℝ) : EReal)
    have h1 : (BitVec.setWidth 32 1#1).toInt = 1 := by decide
    have h2 : (1#1 : BitVec 1).toNat = 1 := by decide
    rw [h1, h2]; simp

/-- The mask at row `r`, time step `k`: the bit `k < len_r` read as a number (the lane index along the row is `k`, the
    broadcast length is the row's own). -/
theorem mask_apply (v1 : Vec Ideal S128x1 .i32) (r : Fin 128) (k : Fin 2048) :
    k0_pay2 (F := Ideal) v1 (ix2 r k) = keep (v1 (ix2 r 0)) k := by
  unfold k0_pay2 keep
  refine (sitofp_apply _ _).trans ?_
  refine (congrArg (FloatOps.sitofp (F := Ideal) .f32) (extui_apply _ _ _)).trans ?_
  refine (sitofp_bit _).trans ?_
  refine congrArg (FloatOps.uitofp (F := Ideal) .f32) ?_
  show IntOp.cmpi .slt _ _ = _
  have e1 : iota Kind.tc S128x2048 32 [1] iota_S128x2048_d1_w32 (ix2 r k) = BitVec.ofNat 32 k.val :=
    iota_single_apply _ _ _ _ _ _
  have e2 : broadcastTo S128x2048 (shapeCast S128x1 v1 shapeCasts_S128x1_S128x1) broadcasts_S128x1_S128x2048 (ix2 r k)
      = v1 (ix2 r 0) := by
    refine (broadcastTo_apply _ _ (ix2 r k) (ix2 r (0 : Fin 1)) ?_).trans ?_
    · intro a
      match a with
      | ⟨0, _⟩ => rfl
      | ⟨1, _⟩ => rfl
    · rw [shapeCast_self]
  rw [e1, e2]

/-- The sum along the rows of a [128, 2048] block, at row `r`, is the sum of that row. -/
theorem rowsum_apply (src : FVec Ideal S128x2048 .f32) (r : Fin 128) :
    multiReduction (F := Ideal) .add [1] S128 src 0x00000000#32 reduces_S128x2048_S128 (.inl rfl) rfl (ix1 r)
      = ∑ k : Fin 2048, src (ix2 r k) := by
  refine (Ideal.multiReduction_add_single src _ reduces_S128x2048_S128 _ _ (ix1 r)).trans ?_
  refine Finset.sum_congr rfl fun k _ => congrArg src ?_
  funext a
  match a with
  | ⟨0, _⟩ => exact Fin.ext rfl
  | ⟨1, _⟩ => exact Fin.ext rfl

/-- The same sum read through the cast of the [128] vector to a [128, 1] column: entry (r, 0) is entry r. -/
theorem rowsum_col_apply (src : FVec Ideal S128x2048 .f32) (r : Fin 128) :
    shapeCast S128x1 (multiReduction (F := Ideal) .add [1] S128 src 0x00000000#32 reduces_S128x2048_S128 (.inl rfl) rfl)
        shapeCasts_S128_S128x1 (ix2 r (0 : Fin 1))
      = ∑ k : Fin 2048, src (ix2 r k) := by
  refine (shapeCast_apply _ _ (ix2 r (0 : Fin 1)) (ix1 r) ?_).trans (rowsum_apply src r)
  rw [Shape.rowMajor_val_one, Shape.rowMajor_val_two]
  show r.val = r.val * 1 + 0
  omega

/-- Zero minus the masked row sum of `g * log (p / g)` is the divergence of row `r`. -/
theorem pay3_apply (v1 : Vec Ideal S128x1 .i32) (p g : Vec Ideal S128x2048 .f32) (r : Fin 128) :
    k0_pay3 (F := Ideal) v1 p g (ix2 r (0 : Fin 1)) = klRow (brow p r) (brow g r) (v1 (ix2 r 0)) := by
  unfold k0_pay3 klRow
  refine (subf_apply _ _ _).trans ?_
  refine (congrArg₂ (fun x y : EReal => x - y) Ideal.ofBits_zero_f32 (rowsum_col_apply _ r)).trans ?_
  rw [zero_sub]
  refine congrArg Neg.neg (Finset.sum_congr rfl fun k _ => ?_)
  show (g (ix2 r k) * Ideal.log (Ideal.div (p (ix2 r k)) (g (ix2 r k)))) * k0_pay2 v1 (ix2 r k) = _
  rw [mask_apply]
  rfl

/-- The same for the second pair of blocks. -/
theorem pay4_apply (v1 : Vec Ideal S128x1 .i32) (p g : Vec Ideal S128x2048 .f32) (r : Fin 128) :
    k0_pay4 (F := Ideal) v1 p g (ix2 r (0 : Fin 1)) = klRow (brow p r) (brow g r) (v1 (ix2 r 0)) := by
  unfold k0_pay4 klRow
  refine (subf_apply _ _ _).trans ?_
  refine (congrArg₂ (fun x y : EReal => x - y) Ideal.ofBits_zero_f32 (rowsum_col_apply _ r)).trans ?_
  rw [zero_sub]
  refine congrArg Neg.neg (Finset.sum_congr rfl fun k _ => ?_)
  show (g (ix2 r k) * Ideal.log (Ideal.div (p (ix2 r k)) (g (ix2 r k)))) * k0_pay2 v1 (ix2 r k) = _
  rw [mask_apply]
  rfl

/-- The masked row sum of `(0 - gl) * log pm`, with `0 - x = -x`. -/
theorem pay5_apply (v1 : Vec Ideal S128x1 .i32) (pm gl : Vec Ideal S128x2048 .f32) (r : Fin 128) :
    k0_pay5 (F := Ideal) v1 pm gl (ix2 r (0 : Fin 1))
      = ∑ k : Fin 2048, -(brow gl r k) * Ideal.log (brow pm r k) * keep (v1 (ix2 r 0)) k := by
  unfold k0_pay5
  refine (rowsum_col_apply _ r).trans (Finset.sum_congr rfl fun k _ => ?_)
  show ((Ideal.ofBits .f32 0x00000000#32 - gl (ix2 r k)) * Ideal.log (pm (ix2 r k))) * k0_pay2 v1 (ix2 r k) = _
  rw [mask_apply, Ideal.ofBits_zero_f32, zero_sub]
  rfl

/-- The masked row sum of `gl`, read through the cast to a column. -/
theorem pay6_col_apply (v1 : Vec Ideal S128x1 .i32) (gl : Vec Ideal S128x2048 .f32) (r : Fin 128) :
    shapeCast S128x1 (k0_pay6 (F := Ideal) v1 gl) shapeCasts_S128_S128x1 (ix2 r (0 : Fin 1))
      = ∑ k : Fin 2048, brow gl r k * keep (v1 (ix2 r 0)) k := by
  unfold k0_pay6
  refine (rowsum_col_apply _ r).trans (Finset.sum_congr rfl fun k _ => ?_)
  show gl (ix2 r k) * k0_pay2 v1 (ix2 r k) = _
  rw [mask_apply]
  rfl

/-- Column 0 of the stored block at row `r`: the masked divergence of that row of the first pair of blocks. -/
theorem out_col0 (v1 : Vec Ideal S128x1 .i32) (v7 v8 v17 v18 v27 v28 v44 : Vec Ideal S128x2048 .f32) (r : Fin 128) :
    k0_pay1 (F := Ideal) (k0_pay3 v1 v7 v8) (k0_pay4 v1 v17 v18) v28 (k0_pay5 v1 v27 v28) (k0_pay6 v1 v28) v44 (ix2 r (0 : Fin 4))
      = klRow (brow v7 r) (brow v8 r) (v1 (ix2 r 0)) := by
  unfold k0_pay1
  refine (concatenate_apply_piece (1 : Fin S128x4.rank) _ _
    (ix2 r (0 : Fin 4)) 0 (by simp) S128x1 _ rfl rfl 0 rfl (ix2 r (0 : Fin 1)) ?_ ?_).trans (pay3_apply v1 v7 v8 r)
  · intro b hb
    match b with
    | ⟨0, _⟩ => rfl
    | ⟨1, _⟩ => exact absurd rfl hb
  · rfl

/-- Column 1: the masked divergence of the second pair. -/
theorem out_col1 (v1 : Vec Ideal S128x1 .i32) (v7 v8 v17 v18 v27 v28 v44 : Vec Ideal S128x2048 .f32) (r : Fin 128) :
    k0_pay1 (F := Ideal) (k0_pay3 v1 v7 v8) (k0_pay4 v1 v17 v18) v28 (k0_pay5 v1 v27 v28) (k0_pay6 v1 v28) v44 (ix2 r (1 : Fin 4))
      = klRow (brow v17 r) (brow v18 r) (v1 (ix2 r 0)) := by
  unfold k0_pay1
  refine (concatenate_apply_piece (1 : Fin S128x4.rank) _ _
    (ix2 r (1 : Fin 4)) 1 (by simp) S128x1 _ rfl rfl 1 rfl (ix2 r (0 : Fin 1)) ?_ ?_).trans (pay4_apply v1 v17 v18 r)
  · intro b hb
    match b with
    | ⟨0, _⟩ => rfl
    | ⟨1, _⟩ => exact absurd rfl hb
  · rfl

/-- Column 2: the attention loss. -/
theorem out_col2 (v1 : Vec Ideal S128x1 .i32) (v7 v8 v17 v18 v27 v28 v44 : Vec Ideal S128x2048 .f32) (r : Fin 128) :
    k0_pay1 (F := Ideal) (k0_pay3 v1 v7 v8) (k0_pay4 v1 v17 v18) v28 (k0_pay5 v1 v27 v28) (k0_pay6 v1 v28) v44 (ix2 r (2 : Fin 4))
      = attRow (brow v44 r) (brow v28 r) := by
  unfold k0_pay1 attRow
  refine (concatenate_apply_piece (1 : Fin S128x4.rank) _ _
    (ix2 r (2 : Fin 4)) 2 (by simp) S128x1 _ rfl rfl 2 rfl (ix2 r (0 : Fin 1)) ?_ ?_).trans ?_
  · intro b hb
    match b with
    | ⟨0, _⟩ => rfl
    | ⟨1, _⟩ => exact absurd rfl hb
  · rfl
  · refine (divf_apply _ _ _).trans ?_
    refine congrArg₂ Ideal.div ((rowsum_col_apply _ r).trans ?_) ?_
    · refine Finset.sum_congr rfl fun k _ => ?_
      show (Ideal.ofBits .f32 0x00000000#32 - v28 (ix2 r k)) * Ideal.log (v44 (ix2 r k) + eps) = _
      rw [Ideal.ofBits_zero_f32, zero_sub]
      rfl
    · refine (addf_apply _ _ _).trans ?_
      exact congrArg (fun x : EReal => x + eps) (rowsum_col_apply v28 r)

/-- Column 3: the masked middle loss. -/
theorem out_col3 (v1 : Vec Ideal S128x1 .i32) (v7 v8 v17 v18 v27 v28 v44 : Vec Ideal S128x2048 .f32) (r : Fin 128) :
    k0_pay1 (F := Ideal) (k0_pay3 v1 v7 v8) (k0_pay4 v1 v17 v18) v28 (k0_pay5 v1 v27 v28) (k0_pay6 v1 v28) v44 (ix2 r (3 : Fin 4))
      = midRow (brow v27 r) (brow v28 r) (v1 (ix2 r 0)) := by
  unfold k0_pay1 midRow
  refine (concatenate_apply_piece (1 : Fin S128x4.rank) _ _
    (ix2 r (3 : Fin 4)) 3 (by simp) S128x1 _ rfl rfl 3 rfl (ix2 r (0 : Fin 1)) ?_ ?_).trans ?_
  · intro b hb
    match b with
    | ⟨0, _⟩ => rfl
    | ⟨1, _⟩ => exact absurd rfl hb
  · rfl
  · refine (divf_apply _ _ _).trans ?_
    refine congrArg₂ Ideal.div ?_ ?_
    · refine (mulf_apply _ _ _).trans ?_
      exact congrArg (fun x : EReal => c07 * x) (pay5_apply v1 v27 v28 r)
    · refine (addf_apply _ _ _).trans ?_
      exact congrArg (fun x : EReal => x + eps) (pay6_col_apply v1 v28 r)

end Cert.KernelIdeal.Payload

end
-- ==== Proof.KIBlocks.lean ====
/-
  The region's result array, whole. Grid point t handles samples 128 t .. 128 t + 127: its eight input blocks are those
  rows of the staged arrays, and the block it writes back holds, at row r and column 0..3, the four per-sample losses of
  sample 128 t + r. The 32 blocks tile the [4096, 4] array, so after the region the array holds, at sample i, the four
  losses of row i of the argument arrays with the length of sample i.
-/
import proofs.«170122_j51651276701971_1_alg».proof.Proof.KIFrame
import proofs.«170122_j51651276701971_1_alg».proof.Proof.KIPayload
import Idealize.ShloMosaic.Lib.Pipeline.Value

set_option maxRecDepth 16384

noncomputable section

namespace Cert.KernelIdeal.Hand

open Cert.KernelIdeal Cert.KernelIdeal.Gen Cert.KernelIdeal.Payload Cert.Spec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## The arrays and blocks at their literal types -/

abbrev arr0 (c : Dev nD) : FVec Ideal S4096x2048 .f32 := V m c main_arg0
abbrev blk0 (c : Dev nD) (t : Fin cfg0.N) : Vec Ideal S128x2048 .f32 := iblk m c 0 t
abbrev arr1 (c : Dev nD) : FVec Ideal S4096x2048 .f32 := V m c main_arg1
abbrev blk1 (c : Dev nD) (t : Fin cfg0.N) : Vec Ideal S128x2048 .f32 := iblk m c 1 t
abbrev arr2 (c : Dev nD) : FVec Ideal S4096x2048 .f32 := V m c main_arg2
abbrev blk2 (c : Dev nD) (t : Fin cfg0.N) : Vec Ideal S128x2048 .f32 := iblk m c 2 t
abbrev arr3 (c : Dev nD) : FVec Ideal S4096x2048 .f32 := V m c main_arg3
abbrev blk3 (c : Dev nD) (t : Fin cfg0.N) : Vec Ideal S128x2048 .f32 := iblk m c 3 t
abbrev arr4 (c : Dev nD) : FVec Ideal S4096x2048 .f32 := V m c main_arg4
abbrev blk4 (c : Dev nD) (t : Fin cfg0.N) : Vec Ideal S128x2048 .f32 := iblk m c 4 t
abbrev arr5 (c : Dev nD) : FVec Ideal S4096x2048 .f32 := V m c main_arg5
abbrev blk5 (c : Dev nD) (t : Fin cfg0.N) : Vec Ideal S128x2048 .f32 := iblk m c 5 t
abbrev arr6 (c : Dev nD) : FVec Ideal S4096x2048 .f32 := V m c main_arg6
abbrev blk6 (c : Dev nD) (t : Fin cfg0.N) : Vec Ideal S128x2048 .f32 := iblk m c 6 t
/-- The lengths as the region finds them: the [4096, 1] reshape of the length vector. -/
abbrev lenArr (c : Dev nD) : IVec S4096x1 32 := V m c main_v0
abbrev blk7 (c : Dev nD) (t : Fin cfg0.N) : Vec Ideal S128x1 .i32 := iblk m c 7 t

/-- The four losses of every sample, as one [4096, 4] array of the staged arrays. -/
def outArr (P0 P1 P2 P3 G4 G5 G6 : FVec Ideal S4096x2048 .f32) (L2 : IVec S4096x1 32) : FVec Ideal S4096x4 .f32 := fun y =>
  match (y 1).val with
  | 0 => klRow (rowOf P0 (y 0)) (rowOf G4 (y 0)) (L2 (ix2 (y 0) 0))
  | 1 => klRow (rowOf P1 (y 0)) (rowOf G5 (y 0)) (L2 (ix2 (y 0) 0))
  | 2 => attRow (rowOf P3 (y 0)) (rowOf G6 (y 0))
  | _ => midRow (rowOf P2 (y 0)) (rowOf G6 (y 0)) (L2 (ix2 (y 0) 0))

/-! ## The index maps: every window's block t starts at row 128 t, column 0 -/

theorem hz : (![0, 0] : Fin 2 → Nat) = fun _ => 0 := funext fun a => by fin_cases a <;> rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

/-- Sample `128 t + r`. -/
def rowAt (t : Fin cfg0.N) (r : Fin 128) : Fin 4096 :=
  ⟨t.val * 128 + r.val, by have h : cfg0.N = 32 := N_0; have := t.isLt; have := r.isLt; omega⟩

/-! ## Each input block's row r is row 128 t + r of its array -/

theorem brow0 (c : Dev nD) (t : Fin cfg0.N) (r : Fin 128) : brow (blk0 m c t) r = rowOf (arr0 m c) (rowAt t r) := by
  funext k
  show V m c main_arg0 (((cfg0.win 0).blk t).view.emb (ix2 r k)) = V m c main_arg0 (ix2 (rowAt t r) k)
  refine congrArg _ (funext fun a => Fin.ext ?_)
  obtain ⟨h0, h1⟩ := idx0 t
  match a with
  | ⟨0, _⟩ => show win0_0.index t (0 : Fin 2) * 128 + 1 * r.val = t.val * 128 + r.val; omega
  | ⟨1, _⟩ => show win0_0.index t (1 : Fin 2) * 2048 + 1 * k.val = k.val; omega

theorem brow1 (c : Dev nD) (t : Fin cfg0.N) (r : Fin 128) : brow (blk1 m c t) r = rowOf (arr1 m c) (rowAt t r) := by
  funext k
  show V m c main_arg1 (((cfg0.win 1).blk t).view.emb (ix2 r k)) = V m c main_arg1 (ix2 (rowAt t r) k)
  refine congrArg _ (funext fun a => Fin.ext ?_)
  obtain ⟨h0, h1⟩ := idx1 t
  match a with
  | ⟨0, _⟩ => show win0_1.index t (0 : Fin 2) * 128 + 1 * r.val = t.val * 128 + r.val; omega
  | ⟨1, _⟩ => show win0_1.index t (1 : Fin 2) * 2048 + 1 * k.val = k.val; omega

theorem brow2 (c : Dev nD) (t : Fin cfg0.N) (r : Fin 128) : brow (blk2 m c t) r = rowOf (arr2 m c) (rowAt t r) := by
  funext k
  show V m c main_arg2 (((cfg0.win 2).blk t).view.emb (ix2 r k)) = V m c main_arg2 (ix2 (rowAt t r) k)
  refine congrArg _ (funext fun a => Fin.ext ?_)
  obtain ⟨h0, h1⟩ := idx2 t
  match a with
  | ⟨0, _⟩ => show win0_2.index t (0 : Fin 2) * 128 + 1 * r.val = t.val * 128 + r.val; omega
  | ⟨1, _⟩ => show win0_2.index t (1 : Fin 2) * 2048 + 1 * k.val = k.val; omega

theorem brow3 (c : Dev nD) (t : Fin cfg0.N) (r : Fin 128) : brow (blk3 m c t) r = rowOf (arr3 m c) (rowAt t r) := by
  funext k
  show V m c main_arg3 (((cfg0.win 3).blk t).view.emb (ix2 r k)) = V m c main_arg3 (ix2 (rowAt t r) k)
  refine congrArg _ (funext fun a => Fin.ext ?_)
  obtain ⟨h0, h1⟩ := idx3 t
  match a with
  | ⟨0, _⟩ => show win0_3.index t (0 : Fin 2) * 128 + 1 * r.val = t.val * 128 + r.val; omega
  | ⟨1, _⟩ => show win0_3.index t (1 : Fin 2) * 2048 + 1 * k.val = k.val; omega

theorem brow4 (c : Dev nD) (t : Fin cfg0.N) (r : Fin 128) : brow (blk4 m c t) r = rowOf (arr4 m c) (rowAt t r) := by
  funext k
  show V m c main_arg4 (((cfg0.win 4).blk t).view.emb (ix2 r k)) = V m c main_arg4 (ix2 (rowAt t r) k)
  refine congrArg _ (funext fun a => Fin.ext ?_)
  obtain ⟨h0, h1⟩ := idx4 t
  match a with
  | ⟨0, _⟩ => show win0_4.index t (0 : Fin 2) * 128 + 1 * r.val = t.val * 128 + r.val; omega
  | ⟨1, _⟩ => show win0_4.index t (1 : Fin 2) * 2048 + 1 * k.val = k.val; omega

theorem brow5 (c : Dev nD) (t : Fin cfg0.N) (r : Fin 128) : brow (blk5 m c t) r = rowOf (arr5 m c) (rowAt t r) := by
  funext k
  show V m c main_arg5 (((cfg0.win 5).blk t).view.emb (ix2 r k)) = V m c main_arg5 (ix2 (rowAt t r) k)
  refine congrArg _ (funext fun a => Fin.ext ?_)
  obtain ⟨h0, h1⟩ := idx5 t
  match a with
  | ⟨0, _⟩ => show win0_5.index t (0 : Fin 2) * 128 + 1 * r.val = t.val * 128 + r.val; omega
  | ⟨1, _⟩ => show win0_5.index t (1 : Fin 2) * 2048 + 1 * k.val = k.val; omega

theorem brow6 (c : Dev nD) (t : Fin cfg0.N) (r : Fin 128) : brow (blk6 m c t) r = rowOf (arr6 m c) (rowAt t r) := by
  funext k
  show V m c main_arg6 (((cfg0.win 6).blk t).view.emb (ix2 r k)) = V m c main_arg6 (ix2 (rowAt t r) k)
  refine congrArg _ (funext fun a => Fin.ext ?_)
  obtain ⟨h0, h1⟩ := idx6 t
  match a with
  | ⟨0, _⟩ => show win0_6.index t (0 : Fin 2) * 128 + 1 * r.val = t.val * 128 + r.val; omega
  | ⟨1, _⟩ => show win0_6.index t (1 : Fin 2) * 2048 + 1 * k.val = k.val; omega

theorem len7 (c : Dev nD) (t : Fin cfg0.N) (r : Fin 128) : blk7 m c t (ix2 r 0) = lenArr m c (ix2 (rowAt t r) 0) := by
  show V m c main_v0 (((cfg0.win 7).blk t).view.emb (ix2 r 0)) = V m c main_v0 (ix2 (rowAt t r) 0)
  refine congrArg _ (funext fun a => Fin.ext ?_)
  obtain ⟨h0, h1⟩ := idx7 t
  match a with
  | ⟨0, _⟩ => show win0_7.index t (0 : Fin 2) * 128 + 1 * r.val = t.val * 128 + r.val; omega
  | ⟨1, _⟩ => show win0_7.index t (1 : Fin 2) * 1 + 1 * 0 = 0; omega

/-- The output block's entry (r, q) is entry (128 t + r, q) of the array. -/
theorem emb8 (t : Fin cfg0.N) (r : Fin 128) (q : Fin 4) : ((cfg0.win 8).blk t).view.emb (ix2 r q) = ix2 (rowAt t r) q := by
  refine funext fun a => Fin.ext ?_
  obtain ⟨h0, h1⟩ := idx8 t
  match a with
  | ⟨0, _⟩ => show win0_8.index t (0 : Fin 2) * 128 + 1 * r.val = t.val * 128 + r.val; omega
  | ⟨1, _⟩ => show win0_8.index t (1 : Fin 2) * 4 + 1 * q.val = q.val; omega

/-! ## What a point writes back -/

theorem flushed8_eq (c : Dev nD) (t : Fin cfg0.N) :
    (dats m 0 c).flushed 8 t = ((cfg0.win 8).blk t).view.read (Elt Ideal) (outArr (arr0 m c) (arr1 m c) (arr2 m c) (arr3 m c) (arr4 m c) (arr5 m c) (arr6 m c) (lenArr m c)) := by
  show (cfg0.win 8).cut (grid0.coords t) ((dats m 0 c).after 8 t) = _
  rw [after0_8]
  unfold out0_8
  rw [View.canon_unit_zero hz]
  unfold stored
  simp only [View.ld_unit_zero (S := S128x2048) hz, View.ld_unit_zero (S := S128x1) hz]
  funext j
  obtain ⟨r, q, rfl⟩ : ∃ (r : Fin 128) (q : Fin 4), j = ix2 r q := ⟨j 0, j 1, eq_ix2 j⟩
  show k0_pay1 (F := Ideal) (k0_pay3 (blk7 m c t) (blk0 m c t) (blk4 m c t)) (k0_pay4 (blk7 m c t) (blk1 m c t) (blk5 m c t)) (blk6 m c t)
      (k0_pay5 (blk7 m c t) (blk2 m c t) (blk6 m c t)) (k0_pay6 (blk7 m c t) (blk6 m c t)) (blk3 m c t) (ix2 r q)
    = outArr (arr0 m c) (arr1 m c) (arr2 m c) (arr3 m c) (arr4 m c) (arr5 m c) (arr6 m c) (lenArr m c) (((cfg0.win 8).blk t).view.emb (ix2 r q))
  rw [emb8]
  match q with
  | ⟨0, _⟩ =>
    refine (out_col0 (blk7 m c t) (blk0 m c t) (blk4 m c t) (blk1 m c t) (blk5 m c t) (blk2 m c t) (blk6 m c t) (blk3 m c t) r).trans ?_
    show _ = klRow (rowOf (arr0 m c) (rowAt t r)) (rowOf (arr4 m c) (rowAt t r)) (lenArr m c (ix2 (rowAt t r) 0))
    rw [brow0, brow4, len7]
  | ⟨1, _⟩ =>
    refine (out_col1 (blk7 m c t) (blk0 m c t) (blk4 m c t) (blk1 m c t) (blk5 m c t) (blk2 m c t) (blk6 m c t) (blk3 m c t) r).trans ?_
    show _ = klRow (rowOf (arr1 m c) (rowAt t r)) (rowOf (arr5 m c) (rowAt t r)) (lenArr m c (ix2 (rowAt t r) 0))
    rw [brow1, brow5, len7]
  | ⟨2, _⟩ =>
    refine (out_col2 (blk7 m c t) (blk0 m c t) (blk4 m c t) (blk1 m c t) (blk5 m c t) (blk2 m c t) (blk6 m c t) (blk3 m c t) r).trans ?_
    show _ = attRow (rowOf (arr3 m c) (rowAt t r)) (rowOf (arr6 m c) (rowAt t r))
    rw [brow3, brow6]
  | ⟨3, _⟩ =>
    refine (out_col3 (blk7 m c t) (blk0 m c t) (blk4 m c t) (blk1 m c t) (blk5 m c t) (blk2 m c t) (blk6 m c t) (blk3 m c t) r).trans ?_
    show _ = midRow (rowOf (arr2 m c) (rowAt t r)) (rowOf (arr6 m c) (rowAt t r)) (lenArr m c (ix2 (rowAt t r) 0))
    rw [brow2, brow6, len7]

/-! ## The blocks tile the array -/

theorem mem_blk8 (t : Fin cfg0.N) (i : S4096x4.Idx) :
    i ∈ ((cfg0.win 8).blk t).view.set ↔ ∀ a : Fin 2, win0_8.index t a * S128x4.size a ≤ (i a).val ∧ (i a).val < win0_8.index t a * S128x4.size a + S128x4.size a := by
  show i ∈ ((View.whole main_v1).slice (win0_8.rect t)).set ↔ _
  rw [View.set_slice_whole, Rect.mem_set_unit]
  exact Iff.rfl

theorem cover8 (i : S4096x4.Idx) : ∃ t : Fin cfg0.N, (cfg0.win 8).flush t = true ∧ i ∈ ((cfg0.win 8).blk t).view.set := by
  have hi0 : (i 0).val < 4096 := (i 0).isLt
  have hi1 : (i 1).val < 4 := (i 1).isLt
  have hN : cfg0.N = 32 := N_0
  have hN' : grid0.N = 32 := N_0
  refine ⟨⟨(i 0).val / 128, by omega⟩, flush0_8 _, ?_⟩
  rw [mem_blk8]
  obtain ⟨h0, h1⟩ := idx8 ⟨(i 0).val / 128, by omega⟩
  have h0' : win0_8.index ⟨(i 0).val / 128, by omega⟩ (0 : Fin 2) = (i 0).val / 128 := h0
  intro a
  match a with
  | ⟨0, _⟩ => show win0_8.index ⟨(i 0).val / 128, _⟩ (0 : Fin 2) * 128 ≤ (i 0).val ∧ (i 0).val < win0_8.index ⟨(i 0).val / 128, _⟩ (0 : Fin 2) * 128 + 128; omega
  | ⟨1, _⟩ => show win0_8.index ⟨(i 0).val / 128, _⟩ (1 : Fin 2) * 4 ≤ (i 1).val ∧ (i 1).val < win0_8.index ⟨(i 0).val / 128, _⟩ (1 : Fin 2) * 4 + 4; omega

/-- The region's result array after the run. -/
theorem final8 (c : Dev nD) : (dats m 0 c).arrAt 8 cfg0.N = outArr (arr0 m c) (arr1 m c) (arr2 m c) (arr3 m c) (arr4 m c) (arr5 m c) (arr6 m c) (lenArr m c) :=
  (dats m 0 c).arrAt_eq_of_cover 8 _ (fun t _ => flushed8_eq m c t) cover8

end Cert.KernelIdeal.Hand

end
-- ==== Proof.SpecResult.lean ====
/-
  The five results as one closed function of the seven float arrays and the length vector: the shared tail of host
  operations applied to the four per-sample loss vectors of the specification.
-/
import proofs.«170122_j51651276701971_1_alg».proof.Proof.Spec

noncomputable section

namespace Cert.Spec

open Idealize.ShloMosaic

theorem hR : SB.ReducesTo [0] S0 := by decide
theorem hS : 0 < S0.numel := by decide
theorem hB : S0.BroadcastsInDim S1 (![] : Fin 0 → Fin S1.rank) := by decide
theorem hC : Shape.Concatenates [S1, S1, S1, S1, S1] S5 0 := by decide

/-- (total, start, end, attention / 2, middle) of the arguments, in the programs' argument order: the four predictions
    (start, end, middle, attention), the two divergence targets (start, end), the localization target, the lengths. -/
def result (P0 P1 P2 P3 G4 G5 G6 : SBT.Idx → EReal) (L : SB.Idx → BitVec 32) : FVec Ideal S5 .f32 :=
  tailFn (F := Ideal) hR hS hB hC (klVec P0 G4 L) (klVec P1 G5 L) (attVec P3 G6) (midVec P2 G6 L)

end Cert.Spec

end
-- ==== Proof.LibNary5.lean ====
/-
  A host operation over a LITERAL family of five references (a concatenate of five operands): its result with each
  operand's contents read at its own reference rather than under a binder over the family's index, so that each
  operand's own result can then be rewritten in turn. General in the signature, the values and the operation's function;
  the same statement the library has for four references.
-/
import Idealize.ShloMosaic.Lib.StableHlo.Run

noncomputable section

namespace Cert.Lib

open Idealize.ShloMosaic Idealize.ShloMosaic.StableHlo

variable {τ : Topo} {sig : RefSig} {Val : EltTy → Type}
variable {x a b c d y : Ref sig .tc}

/-- The result buffer of a five-operand operation holds its function of the five operands' contents, each named at its
    own reference: the family `fun k => F (![x, a, b, c, d] k)` is `Fin.cons (F x) (Fin.cons (F a) …)`, index by index. -/
theorem nary5_result
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

end Cert.Lib

end
-- ==== Proof.KITail.lean ====
/-
  The idealized kernel program's result as a function of its arguments. After the region the tail of host operations
  takes the four columns of the region's [4096, 4] array — column j at sample i is entry (i, j) —, and applies to
  them the shared chain of means; the region's array holds the four per-sample losses of the specification, and the
  lengths the region reads are the [4096, 1] reshape of the length vector, whose entry (i, 0) is length i.
-/
import proofs.«170122_j51651276701971_1_alg».proof.Proof.KIBlocks
import proofs.«170122_j51651276701971_1_alg».proof.Proof.SpecResult
import proofs.«170122_j51651276701971_1_alg».proof.Proof.LibNary5
import Idealize.ShloMosaic.Lib.StableHlo.Run
import Idealize.ShloMosaic.Lib.ValueLayout

set_option maxRecDepth 16384

noncomputable section

namespace Cert.KernelIdeal.Hand

open Cert.KernelIdeal Cert.KernelIdeal.Gen Cert.KernelIdeal.Payload Cert.Spec Cert.Lib
open Idealize.ShloMosaic Idealize.ShloMosaic.TcCoe Idealize.ShloMosaic.ValueIdx Idealize.ShloMosaic.StableHlo
open Idealize.SL Idealize.SL.Sem
open Idealize.ShloMosaic.Pipeline (Dat)

variable (m : (ℓ : Loc nD τ sig) → Buf (Elt Ideal) ℓ) (ρ : Dev nD → PrngReg)

/-! ## The tail over the region's array -/

/-- Column `j` of a [4096, 4] array as a vector over the samples: the slice [0:4096, j:j+1], reshaped. -/
def col0 (O : FVec Ideal S4096x4 .f32) : FVec Ideal S4096 .f32 := shapeCast S4096 (extractStridedSlice S4096x1 ![0, 0] O slices_S4096x4_S4096x1_0_0) shapeCasts_S4096x1_S4096
def col1 (O : FVec Ideal S4096x4 .f32) : FVec Ideal S4096 .f32 := shapeCast S4096 (extractStridedSlice S4096x1 ![0, 1] O slices_S4096x4_S4096x1_0_1) shapeCasts_S4096x1_S4096
def col2 (O : FVec Ideal S4096x4 .f32) : FVec Ideal S4096 .f32 := shapeCast S4096 (extractStridedSlice S4096x1 ![0, 2] O slices_S4096x4_S4096x1_0_2) shapeCasts_S4096x1_S4096
def col3 (O : FVec Ideal S4096x4 .f32) : FVec Ideal S4096 .f32 := shapeCast S4096 (extractStridedSlice S4096x1 ![0, 3] O slices_S4096x4_S4096x1_0_3) shapeCasts_S4096x1_S4096

set_option maxHeartbeats 8000000 in
/-- What the tail leaves in the result buffer: the shared chain of means over the four columns of the region's array. -/
theorem tail_value (c : Dev nD) :
    Pipeline.afterTail₀ cfgs (dats m) 0 (V0 m) [hostOps1] c main_v27
      = tailFn (F := Ideal) reducesTo_S4096_S_d0 h_S_ bcast_S_S1 concatenates_S1_S1_S1_S1_S1_S5_d0
          (col0 ((dats m 0 c).arrAt 8 cfg0.N)) (col1 ((dats m 0 c).arrAt 8 cfg0.N))
          (col2 ((dats m 0 c).arrAt 8 cfg0.N)) (col3 ((dats m 0 c).arrAt 8 cfg0.N)) := by
  unfold Pipeline.afterTail₀
  show StableHlo.after hostOps1 _ (Proc.devRef .tc main_v27) = _
  simp only [StableHlo.after_cons, StableHlo.after_nil]
  rw [nary5_result]
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rw [Pipeline.withArrays_arr spec0 launch0.win.arr_inj c _ _ 8]
  unfold tailFn meanOf col0 col1 col2 col3
  rfl

/-! ## The columns, read at a sample -/

theorem col0_apply (O : FVec Ideal S4096x4 .f32) (i : Fin 4096) : col0 O (ix1 i) = O (ix2 i (0 : Fin 4)) := by
  unfold col0
  rw [shapeCast_apply _ shapeCasts_S4096x1_S4096 (ix1 i) (ix2 i (0 : Fin 1)) (by rw [Shape.rowMajor_val_two, Shape.rowMajor_val_one]; show i.val * 1 + 0 = i.val; omega)]
  exact slice2_axis1_apply 0 O slices_S4096x4_S4096x1_0_0 i 0 0 rfl
theorem col1_apply (O : FVec Ideal S4096x4 .f32) (i : Fin 4096) : col1 O (ix1 i) = O (ix2 i (1 : Fin 4)) := by
  unfold col1
  rw [shapeCast_apply _ shapeCasts_S4096x1_S4096 (ix1 i) (ix2 i (0 : Fin 1)) (by rw [Shape.rowMajor_val_two, Shape.rowMajor_val_one]; show i.val * 1 + 0 = i.val; omega)]
  exact slice2_axis1_apply 1 O slices_S4096x4_S4096x1_0_1 i 0 1 rfl
theorem col2_apply (O : FVec Ideal S4096x4 .f32) (i : Fin 4096) : col2 O (ix1 i) = O (ix2 i (2 : Fin 4)) := by
  unfold col2
  rw [shapeCast_apply _ shapeCasts_S4096x1_S4096 (ix1 i) (ix2 i (0 : Fin 1)) (by rw [Shape.rowMajor_val_two, Shape.rowMajor_val_one]; show i.val * 1 + 0 = i.val; omega)]
  exact slice2_axis1_apply 2 O slices_S4096x4_S4096x1_0_2 i 0 2 rfl
theorem col3_apply (O : FVec Ideal S4096x4 .f32) (i : Fin 4096) : col3 O (ix1 i) = O (ix2 i (3 : Fin 4)) := by
  unfold col3
  rw [shapeCast_apply _ shapeCasts_S4096x1_S4096 (ix1 i) (ix2 i (0 : Fin 1)) (by rw [Shape.rowMajor_val_two, Shape.rowMajor_val_one]; show i.val * 1 + 0 = i.val; omega)]
  exact slice2_axis1_apply 3 O slices_S4096x4_S4096x1_0_3 i 0 3 rfl

/-! ## The lengths the region reads -/

/-- Entry (i, 0) of the reshaped lengths is length i of the launched vector. -/
theorem lenArr_apply (c : Dev nD) (i : Fin 4096) :
    lenArr m c (ix2 i (0 : Fin 1)) = m ((c.tc : Thread nD τ).loc main_arg7) (ix1 i) := by
  have e : lenArr m c = shapeCast S4096x1 (m ((c.tc : Thread nD τ).loc main_arg7)) shapeCasts_S4096_S4096x1 := by
    show StableHlo.after hostOps0 (fun b => m (c, b)) (Proc.devRef .tc main_v0) = _
    after_results
    rfl
  rw [e]
  exact shapeCast_apply _ shapeCasts_S4096_S4096x1 (ix2 i (0 : Fin 1)) (ix1 i)
    (by rw [Shape.rowMajor_val_two, Shape.rowMajor_val_one]; show i.val = i.val * 1 + 0; omega)

/-! ## The result -/

/-- The four columns of the region's array are the specification's per-sample vectors of the launch arguments. -/
theorem cols_eq (c : Dev nD) :
    col0 ((dats m 0 c).arrAt 8 cfg0.N) = klVec (m ((c.tc : Thread nD τ).loc main_arg0)) (m ((c.tc : Thread nD τ).loc main_arg4)) (m ((c.tc : Thread nD τ).loc main_arg7))
    ∧ col1 ((dats m 0 c).arrAt 8 cfg0.N) = klVec (m ((c.tc : Thread nD τ).loc main_arg1)) (m ((c.tc : Thread nD τ).loc main_arg5)) (m ((c.tc : Thread nD τ).loc main_arg7))
    ∧ col2 ((dats m 0 c).arrAt 8 cfg0.N) = attVec (m ((c.tc : Thread nD τ).loc main_arg3)) (m ((c.tc : Thread nD τ).loc main_arg6))
    ∧ col3 ((dats m 0 c).arrAt 8 cfg0.N) = midVec (m ((c.tc : Thread nD τ).loc main_arg2)) (m ((c.tc : Thread nD τ).loc main_arg6)) (m ((c.tc : Thread nD τ).loc main_arg7)) := by
  rw [final8]
  have a0 : arr0 m c = m ((c.tc : Thread nD τ).loc main_arg0) := V_main_arg0 m c
  have a1 : arr1 m c = m ((c.tc : Thread nD τ).loc main_arg1) := V_main_arg1 m c
  have a2 : arr2 m c = m ((c.tc : Thread nD τ).loc main_arg2) := V_main_arg2 m c
  have a3 : arr3 m c = m ((c.tc : Thread nD τ).loc main_arg3) := V_main_arg3 m c
  have a4 : arr4 m c = m ((c.tc : Thread nD τ).loc main_arg4) := V_main_arg4 m c
  have a5 : arr5 m c = m ((c.tc : Thread nD τ).loc main_arg5) := V_main_arg5 m c
  have a6 : arr6 m c = m ((c.tc : Thread nD τ).loc main_arg6) := V_main_arg6 m c
  rw [a0, a1, a2, a3, a4, a5, a6]
  refine ⟨?_, ?_, ?_, ?_⟩
  · funext j
    obtain ⟨i, rfl⟩ : ∃ i, j = ix1 i := ⟨j 0, eq_ix1 j⟩
    rw [col0_apply]
    show klRow _ _ (lenArr m c (ix2 i (0 : Fin 1))) = klRow _ _ (m ((c.tc : Thread nD τ).loc main_arg7) (ix1 i))
    rw [lenArr_apply]
  · funext j
    obtain ⟨i, rfl⟩ : ∃ i, j = ix1 i := ⟨j 0, eq_ix1 j⟩
    rw [col1_apply]
    show klRow _ _ (lenArr m c (ix2 i (0 : Fin 1))) = klRow _ _ (m ((c.tc : Thread nD τ).loc main_arg7) (ix1 i))
    rw [lenArr_apply]
  · funext j
    obtain ⟨i, rfl⟩ : ∃ i, j = ix1 i := ⟨j 0, eq_ix1 j⟩
    rw [col2_apply]
    rfl
  · funext j
    obtain ⟨i, rfl⟩ : ∃ i, j = ix1 i := ⟨j 0, eq_ix1 j⟩
    rw [col3_apply]
    show midRow _ _ (lenArr m c (ix2 i (0 : Fin 1))) = midRow _ _ (m ((c.tc : Thread nD τ).loc main_arg7) (ix1 i))
    rw [lenArr_apply]

/-- The idealized kernel program ends with its result buffer at the specification's result of its arguments, and its
    arguments as launched. -/
theorem run_value : θ_run defs (onTc (τ := τ) (main (F := Ideal))) ⟨m, fun _ => 0, ρ⟩ (fun r => ∀ c : Dev nD,
      r.2.mem ((c.tc : Thread nD τ).loc main_v27) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨by
      rw [(h c).2 main_v27 (Pipeline.mem_restRefs_of main_v27 (by decide) (by decide)), tail_value]
      obtain ⟨e0, e1, e2, e3⟩ := cols_eq m c
      rw [e0, e1, e2, e3]
      rfl,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).2 main_arg7 (Pipeline.mem_restRefs_of main_arg7 (by decide) (by decide))).trans (W_main_arg7 m (dats m) c)⟩)
    (run_main m ρ)

end Cert.KernelIdeal.Hand

end
-- ==== Proof.RefVecs.lean ====
/-
  The reference's four per-sample vectors, read at a sample: the host's sums along the time axis are the per-sample
  formulas of the specification.
-/
import proofs.«170122_j51651276701971_1_alg».proof.Proof.Gen.ReferenceIdeal
import proofs.«170122_j51651276701971_1_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefVecs

open Cert.ReferenceIdeal Cert.Spec Idealize.ShloMosaic Idealize.ShloMosaic.ValueIdx
open Cert.ReferenceIdeal.Facts₀

variable [Cert.ReferenceIdeal.Facts]

/-- The reference's length mask as an array: 1 where the time step is below the sample's length. -/
def maskArr (L : IVec S4096 32) : FVec Ideal S4096x2048 .f32 :=
  uitofp .f32 (cmpi .slt (broadcastInDim S4096x2048 ![0, 1] bcast_S1x2048_S4096x2048_0_1 (broadcastInDim S1x2048 ![1] bcast_S2048_S1x2048_1 (iotaInDim S2048 32 0))) (broadcastInDim S4096x2048 ![0, 1] bcast_S4096x1_S4096x2048_0_1 (broadcastInDim S4096x1 ![0] bcast_S4096_S4096x1_0 L)))

/-! ## Reading the pieces at an index -/

/-- The time-axis reduction's shape fact in the form that names the inserted index. -/
theorem red : Shape.Reduces S4096x2048 [1] S4096 := by decide

/-- The host's sum along the time axis from the zero constant, read at a sample: the plain sum over the row. -/
theorem rowSum_apply (X : FVec Ideal S4096x2048 .f32) (i : Fin 4096) :
    Host.reduceAdd X (constant S_ .f32 0x00000000#32) reducesTo_S4096x2048_S4096_d1 h_S_ (ix1 i)
      = ∑ k : Fin 2048, X (ix2 i k) := by
  rw [hostReduceAdd_apply, Ideal.hostReduceAdd_single _ red, constant_apply, Ideal.ofBits_zero_f32, zero_add]
  refine Finset.sum_congr rfl (fun k _ => ?_)
  congr 1
  funext a
  match a with
  | ⟨0, _⟩ => rfl
  | ⟨1, _⟩ => rfl

/-- The reference's mask at sample `i` and time step `k`: the iota's broadcast reads the word of `k`, the lengths'
    broadcast reads the sample's length, so the mask is the specification's `keep`. -/
theorem maskArr_apply (L : IVec S4096 32) (i : Fin 4096) (k : Fin 2048) :
    maskArr L (ix2 i k) = keep (L (ix1 i)) k := by
  unfold maskArr keep
  show FloatOps.uitofp (F := Ideal) .f32 (IntOp.cmpi .slt
      (broadcastInDim S4096x2048 ![0, 1] bcast_S1x2048_S4096x2048_0_1
        (broadcastInDim S1x2048 ![1] bcast_S2048_S1x2048_1 (iotaInDim S2048 32 0)) (ix2 i k))
      (broadcastInDim S4096x2048 ![0, 1] bcast_S4096x1_S4096x2048_0_1
        (broadcastInDim S4096x1 ![0] bcast_S4096_S4096x1_0 L) (ix2 i k))) = _
  rw [broadcastInDim_apply _ bcast_S1x2048_S4096x2048_0_1 _ (ix2 i k) (ix2 (0 : Fin 1) k)
        (fun a => by match a with | ⟨0, _⟩ => rfl | ⟨1, _⟩ => rfl),
      broadcastInDim_apply _ bcast_S2048_S1x2048_1 _ (ix2 (0 : Fin 1) k) (ix1 k)
        (fun a => by match a with | ⟨0, _⟩ => rfl),
      broadcastInDim_apply _ bcast_S4096x1_S4096x2048_0_1 _ (ix2 i k) (ix2 i (0 : Fin 1))
        (fun a => by match a with | ⟨0, _⟩ => rfl | ⟨1, _⟩ => rfl),
      broadcastInDim_apply _ bcast_S4096_S4096x1_0 _ (ix2 i (0 : Fin 1)) (ix1 i)
        (fun a => by match a with | ⟨0, _⟩ => rfl)]
  rfl

/-- The masked divergence per sample. -/
theorem kl_eq (P G : FVec Ideal S4096x2048 .f32) (L : IVec S4096 32) :
    Host.negf (Host.reduceAdd (mulf (mulf G (Host.log (Host.divf P G))) (maskArr L)) (constant S_ .f32 0x00000000#32) reducesTo_S4096x2048_S4096_d1 h_S_)
      = klVec P G L := by
  funext j
  obtain ⟨i, rfl⟩ : ∃ i, j = ix1 i := ⟨j 0, eq_ix1 j⟩
  show -(Host.reduceAdd (mulf (mulf G (Host.log (Host.divf P G))) (maskArr L)) (constant S_ .f32 0x00000000#32)
      reducesTo_S4096x2048_S4096_d1 h_S_ (ix1 i)) = klRow (rowOf P i) (rowOf G i) (L (ix1 i))
  rw [rowSum_apply]
  unfold klRow
  congr 1
  refine Finset.sum_congr rfl (fun k _ => ?_)
  show G (ix2 i k) * Ideal.log (Ideal.div (P (ix2 i k)) (G (ix2 i k))) * maskArr L (ix2 i k) = _
  rw [maskArr_apply]
  rfl

/-- The attention loss per sample. -/
theorem att_eq (Pa Ga : FVec Ideal S4096x2048 .f32) :
    Host.divf (Host.reduceAdd (mulf (Host.negf Ga) (Host.log (addf Pa (broadcastInDim S4096x2048 ![] bcast_S_S4096x2048 (constant S_ .f32 0x322BCC77#32))))) (constant S_ .f32 0x00000000#32) reducesTo_S4096x2048_S4096_d1 h_S_)
        (addf (Host.reduceAdd Ga (constant S_ .f32 0x00000000#32) reducesTo_S4096x2048_S4096_d1 h_S_) (broadcastInDim S4096 ![] bcast_S_S4096 (constant S_ .f32 0x322BCC77#32)))
      = attVec Pa Ga := by
  funext j
  obtain ⟨i, rfl⟩ : ∃ i, j = ix1 i := ⟨j 0, eq_ix1 j⟩
  show Ideal.div
      (Host.reduceAdd (mulf (Host.negf Ga) (Host.log (addf Pa (broadcastInDim S4096x2048 ![] bcast_S_S4096x2048
        (constant (F := Ideal) S_ .f32 0x322BCC77#32))))) (constant (F := Ideal) S_ .f32 0x00000000#32) reducesTo_S4096x2048_S4096_d1 h_S_ (ix1 i))
      (Host.reduceAdd Ga (constant (F := Ideal) S_ .f32 0x00000000#32) reducesTo_S4096x2048_S4096_d1 h_S_ (ix1 i)
        + broadcastInDim S4096 ![] bcast_S_S4096 (constant (F := Ideal) S_ .f32 0x322BCC77#32) (ix1 i))
    = attRow (rowOf Pa i) (rowOf Ga i)
  rw [rowSum_apply, rowSum_apply, broadcastInDim_scalar_apply, constant_apply]
  unfold attRow
  refine congrArg₂ Ideal.div (Finset.sum_congr rfl (fun k _ => ?_)) rfl
  show -(Ga (ix2 i k)) * Ideal.log (Pa (ix2 i k)
      + broadcastInDim S4096x2048 ![] bcast_S_S4096x2048 (constant (F := Ideal) S_ .f32 0x322BCC77#32) (ix2 i k)) = _
  rw [broadcastInDim_scalar_apply, constant_apply]
  rfl

/-- The masked middle loss per sample. -/
theorem mid_eq (Pm Ga : FVec Ideal S4096x2048 .f32) (L : IVec S4096 32) :
    Host.divf (mulf (broadcastInDim S4096 ![] bcast_S_S4096 (constant S_ .f32 0x3F333333#32)) (Host.reduceAdd (mulf (mulf (Host.negf Ga) (Host.log Pm)) (maskArr L)) (constant S_ .f32 0x00000000#32) reducesTo_S4096x2048_S4096_d1 h_S_))
        (addf (Host.reduceAdd (mulf Ga (maskArr L)) (constant S_ .f32 0x00000000#32) reducesTo_S4096x2048_S4096_d1 h_S_) (broadcastInDim S4096 ![] bcast_S_S4096 (constant S_ .f32 0x322BCC77#32)))
      = midVec Pm Ga L := by
  funext j
  obtain ⟨i, rfl⟩ : ∃ i, j = ix1 i := ⟨j 0, eq_ix1 j⟩
  show Ideal.div
      (broadcastInDim S4096 ![] bcast_S_S4096 (constant (F := Ideal) S_ .f32 0x3F333333#32) (ix1 i)
        * Host.reduceAdd (mulf (mulf (Host.negf Ga) (Host.log Pm)) (maskArr L)) (constant (F := Ideal) S_ .f32 0x00000000#32)
            reducesTo_S4096x2048_S4096_d1 h_S_ (ix1 i))
      (Host.reduceAdd (mulf Ga (maskArr L)) (constant (F := Ideal) S_ .f32 0x00000000#32) reducesTo_S4096x2048_S4096_d1 h_S_ (ix1 i)
        + broadcastInDim S4096 ![] bcast_S_S4096 (constant (F := Ideal) S_ .f32 0x322BCC77#32) (ix1 i))
    = midRow (rowOf Pm i) (rowOf Ga i) (L (ix1 i))
  rw [rowSum_apply, rowSum_apply, broadcastInDim_scalar_apply, broadcastInDim_scalar_apply, constant_apply, constant_apply]
  unfold midRow
  refine congrArg₂ Ideal.div (congrArg₂ (· * ·) rfl (Finset.sum_congr rfl (fun k _ => ?_)))
    (congrArg₂ (· + ·) (Finset.sum_congr rfl (fun k _ => ?_)) rfl)
  · show -(Ga (ix2 i k)) * Ideal.log (Pm (ix2 i k)) * maskArr L (ix2 i k) = _
    rw [maskArr_apply]
    rfl
  · show Ga (ix2 i k) * maskArr L (ix2 i k) = _
    rw [maskArr_apply]
    rfl

end Cert.ReferenceIdeal.RefVecs

end
-- ==== Proof.RefValue.lean ====
/-
  The reference's result as a function of its arguments, at the ideal instance: the generated run ends with the
  result buffer at the composed term of the host operations, which is the shared tail applied to four per-sample
  vectors, and each of those is the specification's (the sums along the time axis read sample by sample).
-/
import proofs.«170122_j51651276701971_1_alg».proof.Proof.Gen.ReferenceIdeal.Run
import proofs.«170122_j51651276701971_1_alg».proof.Proof.RefVecs
import proofs.«170122_j51651276701971_1_alg».proof.Proof.SpecResult

set_option maxRecDepth 16384

noncomputable section

namespace Cert.ReferenceIdeal.RefValue

open Cert.ReferenceIdeal Cert.ReferenceIdeal.Value Cert.ReferenceIdeal.RefVecs Cert.Spec
open Idealize.ShloMosaic Idealize.ShloMosaic.TcCoe Idealize.SL.Sem
open Cert.ReferenceIdeal.Facts₀

/-- The reference's result term is the specification's result of the argument arrays. -/
theorem result_eq (m : (ℓ : Loc nD τ sig) → Buf (Elt Ideal) ℓ) (c : Dev nD) :
    res_main_v58 (F := Ideal) m c
      = Cert.Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.Spec.result
  rw [← kl_eq, ← kl_eq, ← att_eq, ← mid_eq]
  unfold res_main_v58 tailFn meanOf maskArr
  rfl

end Cert.ReferenceIdeal.RefValue

end
-- ==== Proof.lean ====
/-
  The certificate of a training-loss kernel against its reference, over the extended reals.

  Both programs compute, from four prediction arrays, three target arrays (all [4096, 2048]) and a vector of 4096
  lengths, five numbers: with keep(len, k) = 1 for k < len and 0 otherwise, per sample i
    start_i = -(sum_k g_ik log (p_ik / g_ik) keep(len_i, k))      (and the same for the end pair),
    att_i   = (sum_k (-l_ik) log (a_ik + eps)) / (sum_k l_ik + eps),
    mid_i   = (0.7 sum_k (-l_ik) log (q_ik) keep(len_i, k)) / (sum_k l_ik keep(len_i, k) + eps),
  and the result is (S + E + A/2 + M, S, E, A/2, M) for the means S, E, A, M of these over the samples.
  The reference computes this with host operations on whole arrays. The kernel grids over 32 blocks of 128 samples,
  computes the four per-sample losses of a block from the block's rows and writes them as a [128, 4] block of a
  [4096, 4] array; the same host operations then take the means of that array's columns. Both sides add the same terms
  in the same grouping (a row's sum inside, the sum over samples outside), the kernel's zero minus x is the reference's
  negation, and its mask, the comparison bit widened and converted, is the reference's converted comparison bit; so the
  two results are one function of the arguments (`Cert.Spec.result`) with no condition on the values.
  The frames: the kernel program's two readings by its one region's run (each point loads its blocks and stores one
  whole block), the reference's by its run; the idealization rewrote nothing, so `preserves` is trivial.
-/
import proofs.«170122_j51651276701971_1_alg».proof.Defs
import proofs.«170122_j51651276701971_1_alg».proof.Proof.Gen.Kernel
import proofs.«170122_j51651276701971_1_alg».proof.Proof.Gen.KernelIdeal
import proofs.«170122_j51651276701971_1_alg».proof.Proof.Gen.ReferenceIdeal
import proofs.«170122_j51651276701971_1_alg».proof.Proof.Gen.Pre_finite_inputs
import proofs.«170122_j51651276701971_1_alg».proof.Proof.KFrame
import proofs.«170122_j51651276701971_1_alg».proof.Proof.KITail
import proofs.«170122_j51651276701971_1_alg».proof.Proof.RefValue
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_p : Cert.frame_Kernel := fun m ρ _ => Cert.Kernel.Hand.frame m ρ

/-- So does its idealized reading. -/
theorem frame_pi : Cert.frame_KernelIdeal := fun m ρ _ => Cert.KernelIdeal.Hand.frame m ρ

/-- The reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification's result of the (agreeing) arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq]
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
